-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x250000 : Shape := ⟨2, ![2, 250000]⟩
abbrev S50000 : Shape := ⟨1, ![50000]⟩
abbrev S256x1024 : Shape := ⟨2, ![256, 1024]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16x128 .f32) (main_arg10 : FVec F S16 .f32) (main_v33 : IVec S_ 1) : IVec S_ 1 :=
  let main_v34 : FVec F S16x128 .f32 := Host.absf main_arg9
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128x256 .f32) (main_arg7 : FVec F S128 .f32) (main_arg8 : FVec F S128x256 .f32) (main_arg9 : FVec F S16x128 .f32) (main_arg10 : FVec F S16 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_v33

def fn {F : FTy → Type} [FloatOps F] (main_arg0 : FVec F S50000x1024 .f32) (main_arg1 : IVec S2x250000 32) (main_arg2 : IVec S50000 32) (main_arg3 : FVec F S256x1024 .f32) (main_arg4 : FVec F S256 .f32) (main_arg5 : FVec F S256x1024 .f32) (main_arg6 : FVec F S128x256 .f32) (main_arg7 : FVec F S128 .f32) (main_arg8 : FVec F S128x256 .f32) (main_arg9 : FVec F S16x128 .f32) (main_arg10 : FVec F S16 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S256x1024 .f32 := Host.absf main_arg3
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_arg8 main_arg9 main_arg10 main_v13 main_v16
-- ==== Kernel.lean ====
abbrev S50000x1024 : Shape := ⟨2, ![50000, 1024]⟩
abbrev S2x250000 : Shape := ⟨2, ![2, 250000]⟩
abbrev S50000 : Shape := ⟨1, ![50000]⟩
abbrev S256x1024 : Shape := ⟨2, ![256, 1024]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S50000x1 : Shape := ⟨2, ![50000, 1]⟩
abbrev S250000x1024 : Shape := ⟨2, ![250000, 1024]⟩
abbrev S1024x256 : Shape := ⟨2, ![1024, 256]⟩
abbrev S50000x256 : Shape := ⟨2, ![50000, 256]⟩
abbrev S2000x1024 : Shape := ⟨2, ![2000, 1024]⟩
abbrev S2000x256 : Shape := ⟨2, ![2000, 256]⟩
abbrev S1x256 : Shape := ⟨2, ![1, 256]⟩
abbrev S250000x256 : Shape := ⟨2, ![250000, 256]⟩
abbrev S256x128 : Shape := ⟨2, ![256, 128]⟩
abbrev S50000x128 : Shape := ⟨2, ![50000, 128]⟩
abbrev S2000x128 : Shape := ⟨2, ![2000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x16 : Shape := ⟨2, ![128, 16]⟩
abbrev S64x16 : Shape := ⟨2, ![64, 16]⟩
abbrev S1x16 : Shape := ⟨2, ![1, 16]⟩

abbrev nBuf : Space → Nat
  | .hbm => 90
  | .vmem => 18
  | .smem => 0
  | _ => 0

abbrev bufTy : (tb : Table) → Fin (tcTables nBuf tb) → BufTy
  | .hbm, ⟨0, _⟩ => ⟨S50000x1024, .f32⟩
  | .hbm, ⟨1, _⟩ => ⟨S2x250000, .i32⟩
  | .hbm, ⟨2, _⟩ => ⟨S50000, .i32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S16x128, .f32⟩
  | .hbm, ⟨10, _⟩ => ⟨S16, .f32⟩
  | .hbm, ⟨11, _⟩ => ⟨S1x250000, .i32⟩
  | .hbm, ⟨12, _⟩ => ⟨S250000, .i32⟩
  | .hbm, ⟨13, _⟩ => ⟨S1x250000, .i32⟩
  | .hbm, ⟨14, _⟩ => ⟨S250000, .i32⟩
  | .hbm, ⟨15, _⟩ => ⟨S_, .f32⟩
  | .hbm, ⟨16, _⟩ => ⟨S250000, .f32⟩
  | .hbm, ⟨17, _⟩ => ⟨S_, .f32⟩
  | .hbm, ⟨18, _⟩ => ⟨S50000, .f32⟩
  | .hbm, ⟨19, _⟩ => ⟨S250000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S250000, .i32⟩
  | .hbm, ⟨27, _⟩ => ⟨S250000, .i1⟩
  | .hbm, ⟨28, _⟩ => ⟨S_, .i32⟩
  | .hbm, ⟨29, _⟩ => ⟨S250000, .i32⟩
  | .hbm, ⟨30, _⟩ => ⟨S250000, .i32⟩
  | .hbm, ⟨31, _⟩ => ⟨S250000, .i32⟩
  | .hbm, ⟨32, _⟩ => ⟨S250000x1, .i32⟩
  | .hbm, ⟨33, _⟩ => ⟨S250000x1024, .f32⟩
  | .hbm, ⟨34, _⟩ => ⟨S_, .f32⟩
  | .hbm, ⟨35, _⟩ => ⟨S50000x1024, .f32⟩
  | .hbm, ⟨36, _⟩ => ⟨S250000x1, .i32⟩
  | .hbm, ⟨37, _⟩ => ⟨S50000x1024, .f32⟩
  | .hbm, ⟨38, _⟩ => ⟨S50000x1024, .f32⟩
  | .hbm, ⟨39, _⟩ => ⟨S50000x1024, .f32⟩
  | .hbm, ⟨40, _⟩ => ⟨S50000x1024, .bf16⟩
  | .hbm, ⟨41, _⟩ => ⟨S50000x1024, .bf16⟩
  | .hbm, ⟨42, _⟩ => ⟨S1024x256, .f32⟩
  | .hbm, ⟨43, _⟩ => ⟨S1024x256, .bf16⟩
  | .hbm, ⟨44, _⟩ => ⟨S1024x256, .f32⟩
  | .hbm, ⟨45, _⟩ => ⟨S1024x256, .bf16⟩
  | .hbm, ⟨46, _⟩ => ⟨S50000x256, .f32⟩
  | .hbm, ⟨47, _⟩ => ⟨S_, .i32⟩
  | .hbm, ⟨48, _⟩ => ⟨S250000, .i32⟩
  | .hbm, ⟨49, _⟩ => ⟨S250000, .i1⟩
  | .hbm, ⟨50, _⟩ => ⟨S_, .i32⟩
  | .hbm, ⟨51, _⟩ => ⟨S250000, .i32⟩
  | .hbm, ⟨52, _⟩ => ⟨S250000, .i32⟩
  | .hbm, ⟨53, _⟩ => ⟨S250000, .i32⟩
  | .hbm, ⟨54, _⟩ => ⟨S250000x1, .i32⟩
  | .hbm, ⟨55, _⟩ => ⟨S250000x256, .f32⟩
  | .hbm, ⟨56, _⟩ => ⟨S_, .f32⟩
  | .hbm, ⟨57, _⟩ => ⟨S50000x256, .f32⟩
  | .hbm, ⟨58, _⟩ => ⟨S250000x1, .i32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S50000x256, .bf16⟩
  | .hbm, ⟨63, _⟩ => ⟨S50000x256, .bf16⟩
  | .hbm, ⟨64, _⟩ => ⟨S256x128, .f32⟩
  | .hbm, ⟨65, _⟩ => ⟨S256x128, .bf16⟩
  | .hbm, ⟨66, _⟩ => ⟨S256x128, .f32⟩
  | .hbm, ⟨67, _⟩ => ⟨S256x128, .bf16⟩
  | .hbm, ⟨68, _⟩ => ⟨S50000x128, .f32⟩
  | .hbm, ⟨69, _⟩ => ⟨S_, .f32⟩
  | .hbm, ⟨70, _⟩ => ⟨S64x128, .f32⟩
  | .hbm, ⟨71, _⟩ => ⟨S50000x1, .i32⟩
  | .hbm, ⟨72, _⟩ => ⟨S64x128, .f32⟩
  | .hbm, ⟨73, _⟩ => ⟨S_, .f32⟩
  | .hbm, ⟨74, _⟩ => ⟨S50000, .f32⟩
  | .hbm, ⟨75, _⟩ => ⟨S_, .f32⟩
  | .hbm, ⟨76, _⟩ => ⟨S64, .f32⟩
  | .hbm, ⟨77, _⟩ => ⟨S50000x1, .i32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64x1, .f32⟩
  | .hbm, ⟨83, _⟩ => ⟨S64x128, .f32⟩
  | .hbm, ⟨84, _⟩ => ⟨S64x128, .f32⟩
  | .hbm, ⟨85, _⟩ => ⟨S128x16, .f32⟩
  | .hbm, ⟨86, _⟩ => ⟨S64x16, .f32⟩
  | .hbm, ⟨87, _⟩ => ⟨S1x16, .f32⟩
  | .hbm, ⟨88, _⟩ => ⟨S64x16, .f32⟩
  | .hbm, ⟨89, _⟩ => ⟨S64x16, .f32⟩
  | .local _ .vmem, ⟨0, _⟩ => ⟨S2000x1024, .bf16⟩
  | .local _ .vmem, ⟨1, _⟩ => ⟨S2000x1024, .bf16⟩
  | .local _ .vmem, ⟨2, _⟩ => ⟨S2000x1024, .bf16⟩
  | .local _ .vmem, ⟨3, _⟩ => ⟨S2000x1024, .bf16⟩
  | .local _ .vmem, ⟨4, _⟩ => ⟨S1024x256, .bf16⟩
  | .local _ .vmem, ⟨5, _⟩ => ⟨S1024x256, .bf16⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x128, .bf16⟩
  | .local _ .vmem, ⟨14, _⟩ => ⟨S256x128, .bf16⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S_S50000x1024 : S_.BroadcastsInDim S50000x1024 (![] : Fin 0 → Fin S50000x1024.rank)
  bcast_S50000x1_S50000x1024_0_1 : S50000x1.BroadcastsInDim S50000x1024 (![0, 1] : Fin 2 → Fin S50000x1024.rank)
  bitsLt_bf16_f32 : FTy.bits .bf16 < FTy.bits .f32
  transposes_S256x1024_S1024x256_1_0 : S256x1024.Transposes [1, 0] S1024x256
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S16x128_S128x16_1_0 : S16x128.Transposes [1, 0] S128x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S250000x1_S250000_n_0_0_1_wf : ScatterDims.WF S50000 S250000x1 S250000 [] [0] [0] 1
  gather_S50000x1024_S250000x1_S250000x1024_1_0_n_n_0_1_11024_wf : GatherDims.WF S50000x1024 S250000x1 S250000x1024 [1] [0] [] [0] [] 1 ![1, 1024]
  scatter_S50000x1024_S250000x1_S250000x1024_1_0_0_1_wf : ScatterDims.WF S50000x1024 S250000x1 S250000x1024 [1] [0] [0] 1
  dot_S2000x1024_S1024x256_S2000x256_1_0_0_1_n_n_wf : DotDims.WF S2000x1024 S1024x256 S2000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S2000x256_S256x128_S2000x128_1_0_0_1_n_n_wf : DotDims.WF S2000x256 S256x128 S2000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .bf16 = 32 ∨ (Rect.block (s := S50000x1024) S2000x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S50000x1024.size a
  hwx0_1 : ∀ i : grid0.Coords, EltTy.bits .bf16 = 32 ∨ (Rect.block (s := S50000x1024) S2000x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x1024_S250000x1_S250000x1024_1_0_n_n_0_1_11024 : GatherDims S50000x1024 S250000x1 S250000x1024 where
  offsetDims := [1]
  collapsedSliceDims := [0]
  operandBatchingDims := []
  startIndicesBatchingDims := []
  startIndexMap := [0]
  indexVectorDim := 1
  sliceSizes := ![1, 1024]
  wf := gather_S50000x1024_S250000x1_S250000x1024_1_0_n_n_0_1_11024_wf
def scatter_S50000x1024_S250000x1_S250000x1024_1_0_0_1 : ScatterDims S50000x1024 S250000x1 S250000x1024 where
  updateWindowDims := [1]
  insertedWindowDims := [0]
  scatterDimsToOperandDims := [0]
  indexVectorDim := 1
  wf := scatter_S50000x1024_S250000x1_S250000x1024_1_0_0_1_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_v23) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x1024 : Shape := ⟨2, ![50000, 1024]⟩
abbrev S2x250000 : Shape := ⟨2, ![2, 250000]⟩
abbrev S50000 : Shape := ⟨1, ![50000]⟩
abbrev S256x1024 : Shape := ⟨2, ![256, 1024]⟩
abbrev S256 : Shape := ⟨1, ![256]⟩
abbrev S128x256 : Shape := ⟨2, ![128, 256]⟩
abbrev S128 : Shape := ⟨1, ![128]⟩
abbrev S16x128 : Shape := ⟨2, ![16, 128]⟩
abbrev S16 : Shape := ⟨1, ![16]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x1024 : Shape := ⟨2, ![250000, 1024]⟩
abbrev S50000x1 : Shape := ⟨2, ![50000, 1]⟩
abbrev S1024x256 : Shape := ⟨2, ![1024, 256]⟩
abbrev S50000x256 : Shape := ⟨2, ![50000, 256]⟩
abbrev S1x256 : Shape := ⟨2, ![1, 256]⟩
abbrev S250000x256 : Shape := ⟨2, ![250000, 256]⟩
abbrev S256x128 : Shape := ⟨2, ![256, 128]⟩
abbrev S50000x128 : Shape := ⟨2, ![50000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S128x16 : Shape := ⟨2, ![128, 16]⟩
abbrev S64x16 : Shape := ⟨2, ![64, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x250000, .i32⟩
  | .hbm, ⟨2, _⟩ => ⟨S50000, .i32⟩
  | .hbm, ⟨3, _⟩ => ⟨S256x1024, .f32⟩
  | .hbm, ⟨4, _⟩ => ⟨S256, .f32⟩
  | .hbm, ⟨5, _⟩ => ⟨S256x1024, .f32⟩
  | .hbm, ⟨6, _⟩ => ⟨S128x256, .f32⟩
  | .hbm, ⟨7, _⟩ => ⟨S128, .f32⟩
  | .hbm, ⟨8, _⟩ => ⟨S128x256, .f32⟩
  | .hbm, ⟨9, _⟩ => ⟨S16x128, .f32⟩
  | .hbm, ⟨10, _⟩ => ⟨S16, .f32⟩
  | .hbm, ⟨11, _⟩ => ⟨S1x250000, .i32⟩
  | .hbm, ⟨12, _⟩ => ⟨S250000, .i32⟩
  | .hbm, ⟨13, _⟩ => ⟨S1x250000, .i32⟩
  | .hbm, ⟨14, _⟩ => ⟨S250000, .i32⟩
  | .hbm, ⟨15, _⟩ => ⟨S_, .i32⟩
  | .hbm, ⟨16, _⟩ => ⟨S250000, .i32⟩
  | .hbm, ⟨17, _⟩ => ⟨S250000, .i1⟩
  | .hbm, ⟨18, _⟩ => ⟨S_, .i32⟩
  | .hbm, ⟨19, _⟩ => ⟨S250000, .i32⟩
  | .hbm, ⟨20, _⟩ => ⟨S250000, .i32⟩
  | .hbm, ⟨21, _⟩ => ⟨S250000, .i32⟩
  | .hbm, ⟨22, _⟩ => ⟨S250000x1, .i32⟩
  | .hbm, ⟨23, _⟩ => ⟨S250000x1024, .f32⟩
  | .hbm, ⟨24, _⟩ => ⟨S_, .f32⟩
  | .hbm, ⟨25, _⟩ => ⟨S50000x1024, .f32⟩
  | .hbm, ⟨26, _⟩ => ⟨S250000x1, .i32⟩
  | .hbm, ⟨27, _⟩ => ⟨S50000x1024, .f32⟩
  | .hbm, ⟨28, _⟩ => ⟨S_, .f32⟩
  | .hbm, ⟨29, _⟩ => ⟨S250000, .f32⟩
  | .hbm, ⟨30, _⟩ => ⟨S_, .f32⟩
  | .hbm, ⟨31, _⟩ => ⟨S50000, .f32⟩
  | .hbm, ⟨32, _⟩ => ⟨S250000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x1024, .f32⟩
  | .hbm, ⟨39, _⟩ => ⟨S50000x1024, .f32⟩
  | .hbm, ⟨40, _⟩ => ⟨S1024x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S1024x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S250000, .i32⟩
  | .hbm, ⟨53, _⟩ => ⟨S250000, .i1⟩
  | .hbm, ⟨54, _⟩ => ⟨S_, .i32⟩
  | .hbm, ⟨55, _⟩ => ⟨S250000, .i32⟩
  | .hbm, ⟨56, _⟩ => ⟨S250000, .i32⟩
  | .hbm, ⟨57, _⟩ => ⟨S250000, .i32⟩
  | .hbm, ⟨58, _⟩ => ⟨S250000x1, .i32⟩
  | .hbm, ⟨59, _⟩ => ⟨S250000x256, .f32⟩
  | .hbm, ⟨60, _⟩ => ⟨S_, .f32⟩
  | .hbm, ⟨61, _⟩ => ⟨S50000x256, .f32⟩
  | .hbm, ⟨62, _⟩ => ⟨S250000x1, .i32⟩
  | .hbm, ⟨63, _⟩ => ⟨S50000x256, .f32⟩
  | .hbm, ⟨64, _⟩ => ⟨S_, .f32⟩
  | .hbm, ⟨65, _⟩ => ⟨S250000, .f32⟩
  | .hbm, ⟨66, _⟩ => ⟨S_, .f32⟩
  | .hbm, ⟨67, _⟩ => ⟨S50000, .f32⟩
  | .hbm, ⟨68, _⟩ => ⟨S250000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S256x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S256x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S64x128, .f32⟩
  | .hbm, ⟨89, _⟩ => ⟨S50000x1, .i32⟩
  | .hbm, ⟨90, _⟩ => ⟨S64x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S64, .f32⟩
  | .hbm, ⟨95, _⟩ => ⟨S50000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S128x16, .f32⟩
  | .hbm, ⟨104, _⟩ => ⟨S64x16, .f32⟩
  | .hbm, ⟨105, _⟩ => ⟨S1x16, .f32⟩
  | .hbm, ⟨106, _⟩ => ⟨S64x16, .f32⟩
  | .hbm, ⟨107, _⟩ => ⟨S64x16, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S50000x1024 : S_.BroadcastsInDim S50000x1024 (![] : Fin 0 → Fin S50000x1024.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x1024_0_1 : S50000x1.BroadcastsInDim S50000x1024 (![0, 1] : Fin 2 → Fin S50000x1024.rank)
  transposes_S256x1024_S1024x256_1_0 : S256x1024.Transposes [1, 0] S1024x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S16x128_S128x16_1_0 : S16x128.Transposes [1, 0] S128x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S50000x1024_S250000x1_S250000x1024_1_0_n_n_0_1_11024_wf : GatherDims.WF S50000x1024 S250000x1 S250000x1024 [1] [0] [] [0] [] 1 ![1, 1024]
  scatter_S50000x1024_S250000x1_S250000x1024_1_0_0_1_wf : ScatterDims.WF S50000x1024 S250000x1 S250000x1024 [1] [0] [0] 1
  scatter_S50000_S250000x1_S250000_n_0_0_1_wf : ScatterDims.WF S50000 S250000x1 S250000 [] [0] [0] 1
  dot_S50000x1024_S1024x256_S50000x256_1_0_0_1_n_n_wf : DotDims.WF S50000x1024 S1024x256 S50000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S50000x256_S256x128_S50000x128_1_0_0_1_n_n_wf : DotDims.WF S50000x256 S256x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []

variable [Facts₀]

def gather_S50000x1024_S250000x1_S250000x1024_1_0_n_n_0_1_11024 : GatherDims S50000x1024 S250000x1 S250000x1024 where
  offsetDims := [1]
  collapsedSliceDims := [0]
  operandBatchingDims := []
  startIndicesBatchingDims := []
  startIndexMap := [0]
  indexVectorDim := 1
  sliceSizes := ![1, 1024]
  wf := gather_S50000x1024_S250000x1_S250000x1024_1_0_n_n_0_1_11024_wf
def scatter_S50000x1024_S250000x1_S250000x1024_1_0_0_1 : ScatterDims S50000x1024 S250000x1 S250000x1024 where
  updateWindowDims := [1]
  insertedWindowDims := [0]
  scatterDimsToOperandDims := [0]
  indexVectorDim := 1
  wf := scatter_S50000x1024_S250000x1_S250000x1024_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.Dense.lean ====
/-
  The dense half of one SAGE layer over the extended reals, as ONE function of whole arrays.

  For an aggregate `A` and features `X` (both n × k), two weight matrices `WL`, `WR` already transposed to k × o,
  and a bias `b` of length o, entry (p, q) of the layer's output is

      max ( (Σ_j A[p,j]·WL[j,q]  +  Σ_j X[p,j]·WR[j,q])  +  b[q] , 0 ).

  That is the order in which the kernel's body adds: the two products first, the bias last. The reference adds the
  bias onto the first product and the second product after it; the two groupings agree because addition on the
  extended reals is commutative and associative (no finiteness is needed: `add_right_comm` holds in any commutative
  additive monoid, and the extended reals are one).
-/
import Idealize.ShloMosaic.PureOps.Ideal
import Idealize.ShloMosaic.Lib.ValueIdx

noncomputable section

namespace Cert.Sage

open Idealize.ShloMosaic Idealize.ShloMosaic.ValueIdx

/-- Entry (p, q) of relu(A·WL + X·WR + b): row p of the aggregate and of the features against column q of the two
    weight matrices, the bias entry q added last, clamped below at 0. -/
def dense (n k o : Nat) (A X : (⟨2, ![n, k]⟩ : Shape).Idx → EReal) (WL WR : (⟨2, ![k, o]⟩ : Shape).Idx → EReal)
    (b : (⟨1, ![o]⟩ : Shape).Idx → EReal) : (⟨2, ![n, o]⟩ : Shape).Idx → EReal :=
  fun i => max (((∑ j : Fin k, A (ix2 (n0 := n) (n1 := k) (i 0) j) * WL (ix2 (n0 := k) (n1 := o) j (i 1)))
      + ∑ j : Fin k, X (ix2 (n0 := n) (n1 := k) (i 0) j) * WR (ix2 (n0 := k) (n1 := o) j (i 1)))
      + b (ix1 (n := o) (i 1))) 0

/-- The reference's grouping of the same three summands: the bias joins the first product, the second product comes
    last. Equal to `dense` entry by entry, by commutativity and associativity of `+` alone. -/
theorem dense_apply_ref (n k o : Nat) (A X : (⟨2, ![n, k]⟩ : Shape).Idx → EReal) (WL WR : (⟨2, ![k, o]⟩ : Shape).Idx → EReal)
    (b : (⟨1, ![o]⟩ : Shape).Idx → EReal) (i : (⟨2, ![n, o]⟩ : Shape).Idx) :
    dense n k o A X WL WR b i
      = max (((∑ j : Fin k, A (ix2 (n0 := n) (n1 := k) (i 0) j) * WL (ix2 (n0 := k) (n1 := o) j (i 1)))
          + b (ix1 (n := o) (i 1)))
          + ∑ j : Fin k, X (ix2 (n0 := n) (n1 := k) (i 0) j) * WR (ix2 (n0 := k) (n1 := o) j (i 1))) 0 := by
  unfold dense
  rw [add_right_comm]

end Cert.Sage

end
-- ==== Proof.KernelBlock0.lean ====
/-
  What one call of the layer kernel's body stores, read at an index of its block.

  The body loads a block of the aggregate (rows × k) and the matching block of the features, both weight matrices
  whole (k × o) and the bias (o), and stores

      max ( (agg · Wl  +  x · Wr)  +  bias , 0 )

  into its block of the output. Over the extended reals a matrix product into a zero accumulator is the plain sum
  over the contraction index, the bias row is broadcast down the rows, and the clamp is `max · 0`. This module is the first layer's call: blocks of 2000 rows, 1024 input channels, 256 output channels.
-/
import proofs.«130147_j81879256531434_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block0

open Cert.KernelIdeal Cert.KernelIdeal.Gen Idealize.ShloMosaic Idealize.ShloMosaic.ValueIdx

/-! ## Region 0: blocks of 2000 rows, contraction over 1024, 256 output columns -/

section Region0

/-- The left operand's row coordinate is the output's row. -/
theorem lhs0_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
/-- The left operand's column coordinate is the contraction index. -/
theorem lhs0_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
/-- The right operand's row coordinate is the contraction index. -/
theorem rhs0_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
/-- The right operand's column coordinate is the output's column. -/
theorem rhs0_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

/-- The body's matrix product into a zero accumulator, read at (p, q): row p of the left block against column q of
    the right one, summed over the 1024 contraction indices. -/
theorem matmul0_apply (a : FVec Ideal S2000x1024 .bf16) (w : FVec Ideal S1024x256 .bf16) (p : Fin 2000) (q : Fin 256) :
    matmul dot_S2000x1024_S1024x256_S2000x256_1_0_0_1_n_n none a w (constant (F := Ideal) S2000x256 .f32 0x00000000#32) (ix2 p q)
      = ∑ j : Fin 1024, a (ix2 p j) * w (ix2 j q) := by
  show FloatOps.matmul dot_S2000x1024_S1024x256_S2000x256_1_0_0_1_n_n none a w (constant (F := Ideal) S2000x256 .f32 0x00000000#32) (ix2 p q) = _
  rw [Ideal.matmul_constant_zero_apply, ← Equiv.sum_comp (ValueIdx.contrEquiv1 dot_S2000x1024_S1024x256_S2000x256_1_0_0_1_n_n 1024 rfl rfl).symm]
  refine Finset.sum_congr rfl fun k _ => ?_
  have hk := ValueIdx.contrEquiv1_symm_val dot_S2000x1024_S1024x256_S2000x256_1_0_0_1_n_n 1024 rfl rfl k
  have el : dot_S2000x1024_S1024x256_S2000x256_1_0_0_1_n_n.lhsIdx (ix2 p q) ((ValueIdx.contrEquiv1 dot_S2000x1024_S1024x256_S2000x256_1_0_0_1_n_n 1024 rfl rfl).symm k) = ix2 p k := funext fun ax => Fin.ext (by
    match ax with
    | ⟨0, _⟩ => exact lhs0_0 _ _
    | ⟨1, _⟩ => exact (lhs0_1 _ _).trans hk)
  have er : dot_S2000x1024_S1024x256_S2000x256_1_0_0_1_n_n.rhsIdx (ix2 p q) ((ValueIdx.contrEquiv1 dot_S2000x1024_S1024x256_S2000x256_1_0_0_1_n_n 1024 rfl rfl).symm k) = ix2 k q := funext fun ax => Fin.ext (by
    match ax with
    | ⟨0, _⟩ => exact (rhs0_0 _ _).trans hk
    | ⟨1, _⟩ => exact rhs0_1 _ _)
  rw [el, er]

/-- What the body stores, read at (p, q) of its block: the two products added, the bias entry q added onto them, the
    result clamped below at 0. -/
theorem pay0_apply (v0 v5 : Vec Ideal S2000x1024 .bf16) (v2 v7 : Vec Ideal S1024x256 .bf16) (v11 : Vec Ideal S256 .f32)
    (p : Fin 2000) (q : Fin 256) :
    k0_pay1 (F := Ideal) v0 v2 v5 v7 v11 (ix2 p q)
      = max (((∑ j : Fin 1024, v0 (ix2 p j) * v2 (ix2 j q)) + ∑ j : Fin 1024, v5 (ix2 p j) * v7 (ix2 j q)) + v11 (ix1 q)) 0 := by
  unfold k0_pay1
  rw [maximumf_apply, addf_apply, addf_apply, broadcast_apply, shapeCast_self, shapeCast_self, shapeCast_self, shapeCast_self,
    matmul0_apply, matmul0_apply, broadcastTo_1b_ab_apply, shapeCast_a_1a_apply]
  show max _ (Ideal.ofBits .f32 0x00000000#32) = _
  rw [Ideal.ofBits_zero_f32]

end Region0

end Cert.KernelIdeal.Block0

end
-- ==== Proof.Region0.lean ====
/-
  The first layer call's output array, as ONE function of the arrays the call finds.

  The call walks 25 grid points. At point t it loads rows 2000·t … 2000·t + 1999 of the aggregate and of the features,
  the two weight matrices and the bias whole, and writes the body's result back as rows 2000·t … 2000·t + 1999 of the
  output. The body's result at (p, q) of its block is the layer's dense half (`Cert.Sage.dense`) at row 2000·t + p and
  column q of the whole arrays, because the block reads are exactly those rows; and the 25 row blocks tile the 50000
  rows (row r is in block r / 2000). So when the region is left the output array is `dense` of the five input arrays,
  whatever they held when it was entered.

  In order: each input block as rows of its array; one point's stored block as the layer's output at the block's rows;
  the block a point writes back; the cover of the rows by the 25 blocks; the array from its blocks.
-/
import proofs.«130147_j81879256531434_1_alg».proof.Proof.Gen.KernelIdeal.Frame
import proofs.«130147_j81879256531434_1_alg».proof.Proof.Dense
import proofs.«130147_j81879256531434_1_alg».proof.Proof.KernelBlock0
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: the layer with 1024 input and 256 output channels -/

section Region0

/-- The layer's output array as one function of what the region finds in its five input arrays. -/
abbrev L0 (c : Dev nD) : S50000x256.Idx → EReal :=
  Cert.Sage.dense 50000 1024 256 (V c main_v23) (V c main_v24) (V c main_v26) (V c main_v28) (V c main_arg4)

/-- The index maps, decided over the 25 grid points: the two row-blocked inputs and the output move with the point
    along the rows; the weights and the bias stay at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt25_0 (t : Fin cfg0.N) : t.val < 25 := Nat.lt_of_lt_of_eq t.isLt N_0

/-- Row p of the aggregate's block at point t is row 2000·t + p of the aggregate. -/
theorem blkA0 (c : Dev nD) (t : Fin cfg0.N) (p : Fin 2000) (k : Fin 1024) (h : t.val * 2000 + p.val < 50000) :
    (iblk0 V c 0 t : Vec Ideal S2000x1024 .bf16) (ix2 p k) = (V c main_v23 : S50000x1024.Idx → EReal) (ix2 ⟨t.val * 2000 + p.val, h⟩ k) := by
  obtain ⟨e0, e1, -⟩ := idx0 t
  unfold iblk0
  rw [View.read_apply]
  show (V c main_v23 : S50000x1024.Idx → EReal) _ = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 1024 + 1 * k.val = k.val; rw [e1]; omega

/-- Row p of the features' block at point t is row 2000·t + p of the features. -/
theorem blkX0 (c : Dev nD) (t : Fin cfg0.N) (p : Fin 2000) (k : Fin 1024) (h : t.val * 2000 + p.val < 50000) :
    (iblk0 V c 1 t : Vec Ideal S2000x1024 .bf16) (ix2 p k) = (V c main_v24 : S50000x1024.Idx → EReal) (ix2 ⟨t.val * 2000 + p.val, h⟩ k) := by
  obtain ⟨-, -, e0, e1, -⟩ := idx0 t
  unfold iblk0
  rw [View.read_apply]
  show (V c main_v24 : S50000x1024.Idx → EReal) _ = _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1024 + 1 * k.val = k.val; rw [e1]; omega

/-- The left weights' one block is the whole matrix. -/
theorem blkWL0 (c : Dev nD) (t : Fin cfg0.N) (k : Fin 1024) (q : Fin 256) :
    (iblk0 V c 2 t : Vec Ideal S1024x256 .bf16) (ix2 k q) = (V c main_v26 : S1024x256.Idx → EReal) (ix2 k q) := by
  obtain ⟨-, -, -, -, e0, e1, -⟩ := idx0 t
  unfold iblk0
  rw [View.read_apply]
  show (V c main_v26 : S1024x256.Idx → EReal) _ = _
  refine congrArg _ (funext fun a => Fin.ext ?_)
  match a with
  | ⟨0, _⟩ => show win0_2.index t (0 : Fin 2) * 1024 + 1 * k.val = k.val; rw [e0]; omega
  | ⟨1, _⟩ => show win0_2.index t (1 : Fin 2) * 256 + 1 * q.val = q.val; rw [e1]; omega

/-- The right weights' one block is the whole matrix. -/
theorem blkWR0 (c : Dev nD) (t : Fin cfg0.N) (k : Fin 1024) (q : Fin 256) :
    (iblk0 V c 3 t : Vec Ideal S1024x256 .bf16) (ix2 k q) = (V c main_v28 : S1024x256.Idx → EReal) (ix2 k q) := by
  obtain ⟨-, -, -, -, -, -, e0, e1, -⟩ := idx0 t
  unfold iblk0
  rw [View.read_apply]
  show (V c main_v28 : S1024x256.Idx → EReal) _ = _
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 256 + 1 * q.val = q.val; rw [e1]; omega

/-- The bias's one block is the whole vector. -/
theorem blkB0 (c : Dev nD) (t : Fin cfg0.N) (q : Fin 256) :
    (iblk0 V c 4 t : Vec Ideal S256 .f32) (ix1 q) = (V c main_arg4 : S256.Idx → EReal) (ix1 q) := by
  obtain ⟨-, -, -, -, -, -, -, -, e0, -⟩ := idx0 t
  unfold iblk0
  rw [View.read_apply]
  show (V c main_arg4 : S256.Idx → EReal) _ = _
  refine congrArg _ (funext fun a => Fin.ext ?_)
  match a with
  | ⟨0, _⟩ => show win0_4.index t (0 : Fin 1) * 256 + 1 * q.val = q.val; rw [e0]; omega

/-- ONE POINT: what the body stores at (p, q) of its block, from blocks that are rows 2000·n … 2000·n + 1999 of the
    aggregate and of the features and the whole of the weights and the bias, is the layer's output at
    (2000·n + p, q). -/
theorem point0 (A X : S50000x1024.Idx → EReal) (WL WR : S1024x256.Idx → EReal) (b : S256.Idx → EReal)
    (x0 x1 : Vec Ideal S2000x1024 .bf16) (x2 x3 : Vec Ideal S1024x256 .bf16) (x4 : Vec Ideal S256 .f32)
    (n : Nat) (p : Fin 2000) (q : Fin 256) (h : n * 2000 + p.val < 50000)
    (h0 : ∀ k : Fin 1024, x0 (ix2 p k) = A (ix2 ⟨n * 2000 + p.val, h⟩ k))
    (h1 : ∀ k : Fin 1024, x1 (ix2 p k) = X (ix2 ⟨n * 2000 + p.val, h⟩ k))
    (h2 : ∀ k : Fin 1024, x2 (ix2 k q) = WL (ix2 k q)) (h3 : ∀ k : Fin 1024, x3 (ix2 k q) = WR (ix2 k q))
    (h4 : x4 (ix1 q) = b (ix1 q)) :
    k0_pay1 (F := Ideal) x0 x2 x1 x3 x4 (ix2 p q)
      = Cert.Sage.dense 50000 1024 256 A X WL WR b (ix2 ⟨n * 2000 + p.val, h⟩ q) := by
  rw [Cert.KernelIdeal.Block0.pay0_apply]
  unfold Cert.Sage.dense
  simp only [h0, h1, h2, h3, h4]

/-- WHAT POINT t WRITES BACK is block t of the layer's output array. -/
theorem flushed0 (c : Dev nD) (t : Fin cfg0.N) :
    (dat0 V c).flushed 5 t = ((cfg0.win 5).blk t).view.read (Elt Ideal) (L0 V c) := by
  show (cfg0.win 5).cut (grid0.coords t) ((dat0 V c).after 5 t) = _
  rw [after0_5]
  unfold out0_5
  rw [View.canon_unit_zero hz2]
  simp only [View.ld_unit_zero (S := S2000x1024) hz2, View.ld_unit_zero (S := S1024x256) hz2, View.ld_unit_zero (S := S256) hz1]
  funext j
  have ht := lt25_0 t
  have hp : (j 0).val < 2000 := (j 0).isLt
  have hq : (j 1).val < 256 := (j 1).isLt
  have hr : t.val * 2000 + (j 0).val < 50000 := by omega
  obtain ⟨-, -, -, -, -, -, -, -, -, e0, e1⟩ := idx0 t
  have ej : (win0 5).xinj (grid0.coords t) j = ix2 (⟨(j 0).val, hp⟩ : Fin 2000) (⟨(j 1).val, hq⟩ : Fin 256) :=
    funext fun a => Fin.ext (by match a with | ⟨0, _⟩ => rfl | ⟨1, _⟩ => rfl)
  have ee : ((View.whole main_v29).slice ((win0 5).rect t)).emb j
      = ix2 (⟨t.val * 2000 + (j 0).val, hr⟩ : Fin 50000) (⟨(j 1).val, hq⟩ : Fin 256) :=
    funext fun a => Fin.ext (by
      match a with
      | ⟨0, _⟩ => show win0_5.index t (0 : Fin 2) * 2000 + 1 * (j 0).val = t.val * 2000 + (j 0).val; rw [e0]; omega
      | ⟨1, _⟩ => show win0_5.index t (1 : Fin 2) * 256 + 1 * (j 1).val = (j 1).val; rw [e1]; omega)
  show k0_pay1 (F := Ideal) (iblk0 V c 0 t) (iblk0 V c 2 t) (iblk0 V c 1 t) (iblk0 V c 3 t) (iblk0 V c 4 t)
      ((win0 5).xinj (grid0.coords t) j) = _
  rw [ej, View.read_apply, ee]
  exact point0 (V c main_v23) (V c main_v24) (V c main_v26) (V c main_v28) (V c main_arg4)
    (iblk0 V c 0 t) (iblk0 V c 1 t) (iblk0 V c 2 t) (iblk0 V c 3 t) (iblk0 V c 4 t) t.val ⟨(j 0).val, hp⟩ ⟨(j 1).val, hq⟩ hr
    (fun k => blkA0 V c t _ k hr) (fun k => blkX0 V c t _ k hr) (fun k => blkWL0 V c t k _) (fun k => blkWR0 V c t k _)
    (blkB0 V c t _)

/-- Row r of the output lies in the block of point r / 2000, and every point writes its block back: the blocks cover
    the array. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 2000 < cfg0.N := by rw [show cfg0.N = 25 from N_0]; omega
  refine ⟨⟨(i 0).val / 2000, ht⟩, flush0_5 _, ?_⟩
  obtain ⟨-, -, -, -, -, -, -, -, -, e0, e1⟩ := idx0 ⟨(i 0).val / 2000, ht⟩
  show i ∈ ((View.whole main_v29).slice (win0_5.rect ⟨(i 0).val / 2000, ht⟩)).set
  rw [View.set_slice_whole, Rect.mem_set_unit]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]; omega

/-- THE OUTPUT ARRAY when the region is left: the layer's dense half of the five input arrays as the region found
    them. -/
theorem arr0 (c : Dev nD) : (dat0 V c).arrAt 5 cfg0.N = L0 V c :=
  (dat0 V c).arrAt_eq_of_cover 5 (L0 V c) (fun t _ => flushed0 V c t) (cover0)

end Region0

end Cert.KernelIdeal.Region0

end
-- ==== Proof.KernelBlock1.lean ====
/-
  What one call of the layer kernel's body stores, read at an index of its block.

  The body loads a block of the aggregate (rows × k) and the matching block of the features, both weight matrices
  whole (k × o) and the bias (o), and stores

      max ( (agg · Wl  +  x · Wr)  +  bias , 0 )

  into its block of the output. Over the extended reals a matrix product into a zero accumulator is the plain sum
  over the contraction index, the bias row is broadcast down the rows, and the clamp is `max · 0`. This module is the second layer's call: blocks of 2000 rows, 256 input channels, 128 output channels.
-/
import proofs.«130147_j81879256531434_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block1

open Cert.KernelIdeal Cert.KernelIdeal.Gen Idealize.ShloMosaic Idealize.ShloMosaic.ValueIdx

/-! ## Region 1: blocks of 2000 rows, contraction over 256, 128 output columns -/

section Region1

/-- The left operand's row coordinate is the output's row. -/
theorem lhs1_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contraction index. -/
theorem lhs1_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contraction index. -/
theorem rhs1_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column. -/
theorem rhs1_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's matrix product into a zero accumulator, read at (p, q): row p of the left block against column q of
    the right one, summed over the 256 contraction indices. -/
theorem matmul1_apply (a : FVec Ideal S2000x256 .bf16) (w : FVec Ideal S256x128 .bf16) (p : Fin 2000) (q : Fin 128) :
    matmul dot_S2000x256_S256x128_S2000x128_1_0_0_1_n_n none a w (constant (F := Ideal) S2000x128 .f32 0x00000000#32) (ix2 p q)
      = ∑ j : Fin 256, a (ix2 p j) * w (ix2 j q) := by
  show FloatOps.matmul dot_S2000x256_S256x128_S2000x128_1_0_0_1_n_n none a w (constant (F := Ideal) S2000x128 .f32 0x00000000#32) (ix2 p q) = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun ax => Fin.ext (by
    match ax with
    | ⟨0, _⟩ => exact lhs1_0 _ _
    | ⟨1, _⟩ => exact (lhs1_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun ax => Fin.ext (by
    match ax with
    | ⟨0, _⟩ => exact (rhs1_0 _ _).trans hk
    | ⟨1, _⟩ => exact rhs1_1 _ _)
  rw [el, er]

/-- What the body stores, read at (p, q) of its block: the two products added, the bias entry q added onto them, the
    result clamped below at 0. -/
theorem pay1_apply (v0 v5 : Vec Ideal S2000x256 .bf16) (v2 v7 : Vec Ideal S256x128 .bf16) (v11 : Vec Ideal S128 .f32)
    (p : Fin 2000) (q : Fin 128) :
    k1_pay1 (F := Ideal) v0 v2 v5 v7 v11 (ix2 p q)
      = max (((∑ j : Fin 256, v0 (ix2 p j) * v2 (ix2 j q)) + ∑ j : Fin 256, v5 (ix2 p j) * v7 (ix2 j q)) + v11 (ix1 q)) 0 := by
  unfold k1_pay1
  rw [maximumf_apply, addf_apply, addf_apply, broadcast_apply, shapeCast_self, shapeCast_self, shapeCast_self, shapeCast_self,
    matmul1_apply, matmul1_apply, broadcastTo_1b_ab_apply, shapeCast_a_1a_apply]
  show max _ (Ideal.ofBits .f32 0x00000000#32) = _
  rw [Ideal.ofBits_zero_f32]

end Region1

end Cert.KernelIdeal.Block1

end
-- ==== Proof.Region1.lean ====
/-
  The second layer call's output array, as ONE function of the arrays the call finds.

  The call walks 25 grid points. At point t it loads rows 2000·t … 2000·t + 1999 of the aggregate and of the features,
  the two weight matrices and the bias whole, and writes the body's result back as rows 2000·t … 2000·t + 1999 of the
  output. The body's result at (p, q) of its block is the layer's dense half (`Cert.Sage.dense`) at row 2000·t + p and
  column q of the whole arrays, because the block reads are exactly those rows; and the 25 row blocks tile the 50000
  rows (row r is in block r / 2000). So when the region is left the output array is `dense` of the five input arrays,
  whatever they held when it was entered.

  In order: each input block as rows of its array; one point's stored block as the layer's output at the block's rows;
  the block a point writes back; the cover of the rows by the 25 blocks; the array from its blocks.
-/
import proofs.«130147_j81879256531434_1_alg».proof.Proof.Gen.KernelIdeal.Frame
import proofs.«130147_j81879256531434_1_alg».proof.Proof.Dense
import proofs.«130147_j81879256531434_1_alg».proof.Proof.KernelBlock1
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 1: the layer with 256 input and 128 output channels -/

section Region1

/-- The layer's output array as one function of what the region finds in its five input arrays. -/
abbrev L1 (c : Dev nD) : S50000x128.Idx → EReal :=
  Cert.Sage.dense 50000 256 128 (V c main_v42) (V c main_v43) (V c main_v45) (V c main_v47) (V c main_arg7)

/-- The index maps, decided over the 25 grid points: the two row-blocked inputs and the output move with the point
    along the rows; the weights and the bias stay at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem lt25_1 (t : Fin cfg1.N) : t.val < 25 := Nat.lt_of_lt_of_eq t.isLt N_1

/-- Row p of the aggregate's block at point t is row 2000·t + p of the aggregate. -/
theorem blkA1 (c : Dev nD) (t : Fin cfg1.N) (p : Fin 2000) (k : Fin 256) (h : t.val * 2000 + p.val < 50000) :
    (iblk1 V c 0 t : Vec Ideal S2000x256 .bf16) (ix2 p k) = (V c main_v42 : S50000x256.Idx → EReal) (ix2 ⟨t.val * 2000 + p.val, h⟩ k) := by
  obtain ⟨e0, e1, -⟩ := idx1 t
  unfold iblk1
  rw [View.read_apply]
  show (V c main_v42 : S50000x256.Idx → EReal) _ = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- Row p of the features' block at point t is row 2000·t + p of the features. -/
theorem blkX1 (c : Dev nD) (t : Fin cfg1.N) (p : Fin 2000) (k : Fin 256) (h : t.val * 2000 + p.val < 50000) :
    (iblk1 V c 1 t : Vec Ideal S2000x256 .bf16) (ix2 p k) = (V c main_v43 : S50000x256.Idx → EReal) (ix2 ⟨t.val * 2000 + p.val, h⟩ k) := by
  obtain ⟨-, -, e0, e1, -⟩ := idx1 t
  unfold iblk1
  rw [View.read_apply]
  show (V c main_v43 : S50000x256.Idx → EReal) _ = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

/-- The left weights' one block is the whole matrix. -/
theorem blkWL1 (c : Dev nD) (t : Fin cfg1.N) (k : Fin 256) (q : Fin 128) :
    (iblk1 V c 2 t : Vec Ideal S256x128 .bf16) (ix2 k q) = (V c main_v45 : S256x128.Idx → EReal) (ix2 k q) := by
  obtain ⟨-, -, -, -, e0, e1, -⟩ := idx1 t
  unfold iblk1
  rw [View.read_apply]
  show (V c main_v45 : S256x128.Idx → EReal) _ = _
  refine congrArg _ (funext fun a => Fin.ext ?_)
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- The right weights' one block is the whole matrix. -/
theorem blkWR1 (c : Dev nD) (t : Fin cfg1.N) (k : Fin 256) (q : Fin 128) :
    (iblk1 V c 3 t : Vec Ideal S256x128 .bf16) (ix2 k q) = (V c main_v47 : S256x128.Idx → EReal) (ix2 k q) := by
  obtain ⟨-, -, -, -, -, -, e0, e1, -⟩ := idx1 t
  unfold iblk1
  rw [View.read_apply]
  show (V c main_v47 : S256x128.Idx → EReal) _ = _
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 128 + 1 * q.val = q.val; rw [e1]; omega

/-- The bias's one block is the whole vector. -/
theorem blkB1 (c : Dev nD) (t : Fin cfg1.N) (q : Fin 128) :
    (iblk1 V c 4 t : Vec Ideal S128 .f32) (ix1 q) = (V c main_arg7 : S128.Idx → EReal) (ix1 q) := by
  obtain ⟨-, -, -, -, -, -, -, -, e0, -⟩ := idx1 t
  unfold iblk1
  rw [View.read_apply]
  show (V c main_arg7 : S128.Idx → EReal) _ = _
  refine congrArg _ (funext fun a => Fin.ext ?_)
  match a with
  | ⟨0, _⟩ => show win1_4.index t (0 : Fin 1) * 128 + 1 * q.val = q.val; rw [e0]; omega

/-- ONE POINT: what the body stores at (p, q) of its block, from blocks that are rows 2000·n … 2000·n + 1999 of the
    aggregate and of the features and the whole of the weights and the bias, is the layer's output at
    (2000·n + p, q). -/
theorem point1 (A X : S50000x256.Idx → EReal) (WL WR : S256x128.Idx → EReal) (b : S128.Idx → EReal)
    (x0 x1 : Vec Ideal S2000x256 .bf16) (x2 x3 : Vec Ideal S256x128 .bf16) (x4 : Vec Ideal S128 .f32)
    (n : Nat) (p : Fin 2000) (q : Fin 128) (h : n * 2000 + p.val < 50000)
    (h0 : ∀ k : Fin 256, x0 (ix2 p k) = A (ix2 ⟨n * 2000 + p.val, h⟩ k))
    (h1 : ∀ k : Fin 256, x1 (ix2 p k) = X (ix2 ⟨n * 2000 + p.val, h⟩ k))
    (h2 : ∀ k : Fin 256, x2 (ix2 k q) = WL (ix2 k q)) (h3 : ∀ k : Fin 256, x3 (ix2 k q) = WR (ix2 k q))
    (h4 : x4 (ix1 q) = b (ix1 q)) :
    k1_pay1 (F := Ideal) x0 x2 x1 x3 x4 (ix2 p q)
      = Cert.Sage.dense 50000 256 128 A X WL WR b (ix2 ⟨n * 2000 + p.val, h⟩ q) := by
  rw [Cert.KernelIdeal.Block1.pay1_apply]
  unfold Cert.Sage.dense
  simp only [h0, h1, h2, h3, h4]

/-- WHAT POINT t WRITES BACK is block t of the layer's output array. -/
theorem flushed1 (c : Dev nD) (t : Fin cfg1.N) :
    (dat1 V c).flushed 5 t = ((cfg1.win 5).blk t).view.read (Elt Ideal) (L1 V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x128) hz2, View.ld_unit_zero (S := S128) hz1]
  funext j
  have ht := lt25_1 t
  have hp : (j 0).val < 2000 := (j 0).isLt
  have hq : (j 1).val < 128 := (j 1).isLt
  have hr : t.val * 2000 + (j 0).val < 50000 := by omega
  obtain ⟨-, -, -, -, -, -, -, -, -, e0, e1⟩ := idx1 t
  have ej : (win1 5).xinj (grid1.coords t) j = ix2 (⟨(j 0).val, hp⟩ : Fin 2000) (⟨(j 1).val, hq⟩ : Fin 128) :=
    funext fun a => Fin.ext (by match a with | ⟨0, _⟩ => rfl | ⟨1, _⟩ => rfl)
  have ee : ((View.whole main_v48).slice ((win1 5).rect t)).emb j
      = ix2 (⟨t.val * 2000 + (j 0).val, hr⟩ : Fin 50000) (⟨(j 1).val, hq⟩ : Fin 128) :=
    funext fun a => Fin.ext (by
      match a with
      | ⟨0, _⟩ => show win1_5.index t (0 : Fin 2) * 2000 + 1 * (j 0).val = t.val * 2000 + (j 0).val; rw [e0]; omega
      | ⟨1, _⟩ => show win1_5.index t (1 : Fin 2) * 128 + 1 * (j 1).val = (j 1).val; rw [e1]; omega)
  show k1_pay1 (F := Ideal) (iblk1 V c 0 t) (iblk1 V c 2 t) (iblk1 V c 1 t) (iblk1 V c 3 t) (iblk1 V c 4 t)
      ((win1 5).xinj (grid1.coords t) j) = _
  rw [ej, View.read_apply, ee]
  exact point1 (V c main_v42) (V c main_v43) (V c main_v45) (V c main_v47) (V c main_arg7)
    (iblk1 V c 0 t) (iblk1 V c 1 t) (iblk1 V c 2 t) (iblk1 V c 3 t) (iblk1 V c 4 t) t.val ⟨(j 0).val, hp⟩ ⟨(j 1).val, hq⟩ hr
    (fun k => blkA1 V c t _ k hr) (fun k => blkX1 V c t _ k hr) (fun k => blkWL1 V c t k _) (fun k => blkWR1 V c t k _)
    (blkB1 V c t _)

/-- Row r of the output lies in the block of point r / 2000, and every point writes its block back: the blocks cover
    the array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := by rw [show cfg1.N = 25 from N_1]; omega
  refine ⟨⟨(i 0).val / 2000, ht⟩, flush1_5 _, ?_⟩
  obtain ⟨-, -, -, -, -, -, -, -, -, e0, e1⟩ := idx1 ⟨(i 0).val / 2000, ht⟩
  show i ∈ ((View.whole main_v48).slice (win1_5.rect ⟨(i 0).val / 2000, ht⟩)).set
  rw [View.set_slice_whole, Rect.mem_set_unit]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e1]; omega

/-- THE OUTPUT ARRAY when the region is left: the layer's dense half of the five input arrays as the region found
    them. -/
theorem arr1 (c : Dev nD) : (dat1 V c).arrAt 5 cfg1.N = L1 V c :=
  (dat1 V c).arrAt_eq_of_cover 5 (L1 V c) (fun t _ => flushed1 V c t) (cover1)

end Region1

end Cert.KernelIdeal.Region1

end
-- ==== Proof.Stretches.lean ====
/-
  What each of the three stretches of host operations in the kernel's program leaves in the buffers that the two
  layer calls and the result read, said in the vocabulary of the reference's own stages.

  The kernel's program prepares each layer call on the host exactly as the reference prepares its matrix products:
  the edge list split into sources and destinations, negative sources wrapped, rows gathered at the sources and
  scatter-added at the destinations, divided by the clamped in-degree; the weights transposed. After the second call
  it pools by graph and applies the classifier head exactly as the reference does. So every buffer a stretch writes is
  one of the reference's stage functions of the buffers the stretch reads — up to the change of float format before a
  layer call, which the statements keep as `truncf`. The lemmas hold for any float family and any buffer contents `W`
  the stretch starts from; where a stretch reads a buffer an earlier layer call or stretch wrote, the lemma takes what that
  buffer holds as a hypothesis, so the gathers, scatters and transposes are carried as whole stages and never opened.
-/
import proofs.«130147_j81879256531434_1_alg».proof.Proof.Gen.KernelIdeal.Launch
import proofs.«130147_j81879256531434_1_alg».proof.Proof.Gen.ReferenceIdeal.Read

set_option maxRecDepth 16384

noncomputable section

namespace Cert.KernelIdeal.Stretch

open Cert.KernelIdeal Cert.KernelIdeal.Gen Cert.ReferenceIdeal.Read Idealize.ShloMosaic Idealize.ShloMosaic.StableHlo

variable {F : FTy → Type} [FloatOps F] (W : Valuation τ sig (Elt F))

/-! ## Before the first layer call -/

/-- The edges' sources. -/
theorem src0 : after hostOps0 W (Proc.devRef .tc main_v1) = val_main_v1 (F := F) (W (Proc.devRef .tc main_arg1)) := by
  after_results_simp <;> rfl
/-- The edges' destinations. -/
theorem dst0 : after hostOps0 W (Proc.devRef .tc main_v3) = val_main_v3 (F := F) (W (Proc.devRef .tc main_arg1)) := by
  after_results_simp <;> rfl
/-- The in-degree of every node, clamped below at one, as a column. -/
theorem deg0 : after hostOps0 W (Proc.devRef .tc main_v10) = val_main_v20 (F := F) (W (Proc.devRef .tc main_arg1)) := by
  after_results_simp <;> rfl
/-- The first layer's aggregate: the mean over incoming edges of the input features, in the call's operand format. -/
theorem agg0 : after hostOps0 W (Proc.devRef .tc main_v23)
    = truncf .bf16 (val_main_v22 (F := F) (W (Proc.devRef .tc main_arg0)) (W (Proc.devRef .tc main_arg1))) (by decide) := by
  after_results_simp <;> rfl
/-- The input features, in the call's operand format. -/
theorem feat0 : after hostOps0 W (Proc.devRef .tc main_v24) = truncf .bf16 (W (Proc.devRef .tc main_arg0)) (by decide) := by
  after_results_simp <;> rfl
/-- The first layer's left weights, transposed, in the call's operand format. -/
theorem wl0 : after hostOps0 W (Proc.devRef .tc main_v26) = truncf .bf16 (val_main_v23 (F := F) (W (Proc.devRef .tc main_arg3))) (by decide) := by
  after_results_simp <;> rfl
/-- The first layer's right weights, transposed, in the call's operand format. -/
theorem wr0 : after hostOps0 W (Proc.devRef .tc main_v28) = truncf .bf16 (val_main_v28 (F := F) (W (Proc.devRef .tc main_arg5))) (by decide) := by
  after_results_simp <;> rfl

/-- The arguments the first stretch does not write keep their contents. -/
theorem keep0_arg2 : after hostOps0 W (Proc.devRef .tc main_arg2) = W (Proc.devRef .tc main_arg2) := by
  after_results_simp <;> rfl
theorem keep0_arg4 : after hostOps0 W (Proc.devRef .tc main_arg4) = W (Proc.devRef .tc main_arg4) := by
  after_results_simp <;> rfl
theorem keep0_arg6 : after hostOps0 W (Proc.devRef .tc main_arg6) = W (Proc.devRef .tc main_arg6) := by
  after_results_simp <;> rfl
theorem keep0_arg7 : after hostOps0 W (Proc.devRef .tc main_arg7) = W (Proc.devRef .tc main_arg7) := by
  after_results_simp <;> rfl
theorem keep0_arg8 : after hostOps0 W (Proc.devRef .tc main_arg8) = W (Proc.devRef .tc main_arg8) := by
  after_results_simp <;> rfl
theorem keep0_arg9 : after hostOps0 W (Proc.devRef .tc main_arg9) = W (Proc.devRef .tc main_arg9) := by
  after_results_simp <;> rfl
theorem keep0_arg10 : after hostOps0 W (Proc.devRef .tc main_arg10) = W (Proc.devRef .tc main_arg10) := by
  after_results_simp <;> rfl

/-! ## Between the two layer calls -/

/-- The second layer's aggregate: the mean over incoming edges of the first layer's output. The sources, the
    destinations and the degree column are the buffers the first stretch left; the first layer's output is whatever
    the first call left (`h29`). -/
theorem agg1 {x0 : (⟨Cert.ReferenceIdeal.S50000x1024, .f32⟩ : BufTy).Contents (Elt F)} {x1 : (⟨Cert.ReferenceIdeal.S2x250000, .i32⟩ : BufTy).Contents (Elt F)}
    {x3 : (⟨Cert.ReferenceIdeal.S256x1024, .f32⟩ : BufTy).Contents (Elt F)} {x4 : (⟨Cert.ReferenceIdeal.S256, .f32⟩ : BufTy).Contents (Elt F)}
    {x5 : (⟨Cert.ReferenceIdeal.S256x1024, .f32⟩ : BufTy).Contents (Elt F)}
    (h29 : W (Proc.devRef .tc main_v29) = val_main_v31 (F := F) x0 x1 x3 x4 x5)
    (h1 : W (Proc.devRef .tc main_v1) = val_main_v1 (F := F) x1) (h3 : W (Proc.devRef .tc main_v3) = val_main_v3 (F := F) x1)
    (h10 : W (Proc.devRef .tc main_v10) = val_main_v20 (F := F) x1) :
    after hostOps1 W (Proc.devRef .tc main_v42) = truncf .bf16 (val_main_v50 (F := F) x0 x1 x3 x4 x5) (by decide) := by
  after_results_simp
  rw [h29, h1, h3, h10]
  rfl
/-- The first layer's output, in the call's operand format. -/
theorem feat1 : after hostOps1 W (Proc.devRef .tc main_v43) = truncf .bf16 (W (Proc.devRef .tc main_v29)) (by decide) := by
  after_results_simp <;> rfl
/-- The second layer's left weights, transposed, in the call's operand format. -/
theorem wl1 : after hostOps1 W (Proc.devRef .tc main_v45) = truncf .bf16 (val_main_v51 (F := F) (W (Proc.devRef .tc main_arg6))) (by decide) := by
  after_results_simp <;> rfl
/-- The second layer's right weights, transposed, in the call's operand format. -/
theorem wr1 : after hostOps1 W (Proc.devRef .tc main_v47) = truncf .bf16 (val_main_v56 (F := F) (W (Proc.devRef .tc main_arg8))) (by decide) := by
  after_results_simp <;> rfl

/-- The arguments the second stretch does not write keep their contents. -/
theorem keep1_arg2 : after hostOps1 W (Proc.devRef .tc main_arg2) = W (Proc.devRef .tc main_arg2) := by
  after_results_simp <;> rfl
theorem keep1_arg7 : after hostOps1 W (Proc.devRef .tc main_arg7) = W (Proc.devRef .tc main_arg7) := by
  after_results_simp <;> rfl
theorem keep1_arg9 : after hostOps1 W (Proc.devRef .tc main_arg9) = W (Proc.devRef .tc main_arg9) := by
  after_results_simp <;> rfl
theorem keep1_arg10 : after hostOps1 W (Proc.devRef .tc main_arg10) = W (Proc.devRef .tc main_arg10) := by
  after_results_simp <;> rfl

/-! ## After the second layer call -/

/-- The result: the second layer's output (whatever the second call left, `h48`) pooled by graph and sent through the
    classifier head. -/
theorem out2 {x0 : (⟨Cert.ReferenceIdeal.S50000x1024, .f32⟩ : BufTy).Contents (Elt F)} {x1 : (⟨Cert.ReferenceIdeal.S2x250000, .i32⟩ : BufTy).Contents (Elt F)}
    {x3 : (⟨Cert.ReferenceIdeal.S256x1024, .f32⟩ : BufTy).Contents (Elt F)} {x4 : (⟨Cert.ReferenceIdeal.S256, .f32⟩ : BufTy).Contents (Elt F)}
    {x5 : (⟨Cert.ReferenceIdeal.S256x1024, .f32⟩ : BufTy).Contents (Elt F)} {x6 : (⟨Cert.ReferenceIdeal.S128x256, .f32⟩ : BufTy).Contents (Elt F)}
    {x7 : (⟨Cert.ReferenceIdeal.S128, .f32⟩ : BufTy).Contents (Elt F)} {x8 : (⟨Cert.ReferenceIdeal.S128x256, .f32⟩ : BufTy).Contents (Elt F)}
    (h48 : W (Proc.devRef .tc main_v48) = val_main_v59 (F := F) x0 x1 x3 x4 x5 x6 x7 x8) :
    after hostOps2 W (Proc.devRef .tc main_v65)
      = val_main_v76 (F := F) x0 x1 (W (Proc.devRef .tc main_arg2)) x3 x4 x5 x6 x7 x8 (W (Proc.devRef .tc main_arg9)) (W (Proc.devRef .tc main_arg10)) := by
  after_results_simp
  rw [h48]
  rfl

end Cert.KernelIdeal.Stretch

end
-- ==== Proof.RefLayer.lean ====
/-
  The reference's two layer outputs, each as the dense half of a SAGE layer (`Cert.Sage.dense`) of the stages that feed it.

  The reference computes  max( (A·Wlᵀ + b) + X·Wrᵀ , 0 ):  a `dot_general` of the aggregate with the transposed left
  weights, the bias broadcast and added, a second `dot_general` of the features with the transposed right weights
  added, and the clamp at zero. Read at an index (p, q) each `dot_general` is the sum over the contraction index of
  row p against column q, the broadcast bias is its entry q, and the clamp's zero is the literal's value 0; what is left
  is `dense` in the reference's grouping of the three summands (`Cert.Sage.dense_apply_ref`).

  The aggregate, the transposed weights and (in the second layer) the first layer's output enter only as whole
  arrays: nothing here looks inside a gather, a scatter or a transpose.
-/
import proofs.«130147_j81879256531434_1_alg».proof.Proof.Gen.ReferenceIdeal.Read
import proofs.«130147_j81879256531434_1_alg».proof.Proof.Dense

noncomputable section

namespace Cert.ReferenceIdeal.Layer

open Cert.ReferenceIdeal Cert.ReferenceIdeal.Read Idealize.ShloMosaic Idealize.ShloMosaic.ValueIdx

/-- The first layer's output is `dense` of the first aggregate, the input features, the two transposed weight matrices
    of layer one and its bias. -/
theorem layer1 (x0 : (⟨S50000x1024, .f32⟩ : BufTy).Contents (Elt Ideal)) (x1 : (⟨S2x250000, .i32⟩ : BufTy).Contents (Elt Ideal))
    (x3 : (⟨S256x1024, .f32⟩ : BufTy).Contents (Elt Ideal)) (x4 : (⟨S256, .f32⟩ : BufTy).Contents (Elt Ideal))
    (x5 : (⟨S256x1024, .f32⟩ : BufTy).Contents (Elt Ideal)) :
    val_main_v31 (F := Ideal) x0 x1 x3 x4 x5
      = Cert.Sage.dense 50000 1024 256 (val_main_v22 (F := Ideal) x0 x1) x0 (val_main_v23 (F := Ideal) x3) (val_main_v28 (F := Ideal) x5) x4 := by
  funext i
  rw [Cert.Sage.dense_apply_ref, val_main_v31_apply, val_main_v30_apply, val_main_v27_apply, val_main_v24_apply, val_main_v29_apply,
    val_main_v26_apply, val_main_v25_apply, val_main_call0_v0_apply, val_main_call0_cst_apply]
  have el : ∀ k : Fin 1024, lidx_main_v24 i k = ix2 (n0 := 50000) (n1 := 1024) (i 0) k := fun k => funext fun a => Fin.ext (by
    match a with | ⟨0, _⟩ => rfl | ⟨1, _⟩ => rfl)
  have er : ∀ k : Fin 1024, ridx_main_v24 i k = ix2 (n0 := 1024) (n1 := 256) k (i 1) := fun k => funext fun a => Fin.ext (by
    match a with | ⟨0, _⟩ => rfl | ⟨1, _⟩ => rfl)
  have el' : ∀ k : Fin 1024, lidx_main_v29 i k = ix2 (n0 := 50000) (n1 := 1024) (i 0) k := fun k => funext fun a => Fin.ext (by
    match a with | ⟨0, _⟩ => rfl | ⟨1, _⟩ => rfl)
  have er' : ∀ k : Fin 1024, ridx_main_v29 i k = ix2 (n0 := 1024) (n1 := 256) k (i 1) := fun k => funext fun a => Fin.ext (by
    match a with | ⟨0, _⟩ => rfl | ⟨1, _⟩ => rfl)
  have eb : idx_main_v25 (idx_main_v26 i) = ix1 (n := 256) (i 1) := funext fun a => Fin.ext (by
    match a with | ⟨0, _⟩ => rfl)
  simp only [el, er, el', er', eb, Ideal.maximumf_def, Ideal.addf_def, Ideal.ofBits_def, Ideal.ofBits_zero_f32]

/-- The second layer's output is `dense` of the second aggregate, the first layer's output, the two transposed weight
    matrices of layer two and its bias. -/
theorem layer2 (x0 : (⟨S50000x1024, .f32⟩ : BufTy).Contents (Elt Ideal)) (x1 : (⟨S2x250000, .i32⟩ : BufTy).Contents (Elt Ideal))
    (x3 : (⟨S256x1024, .f32⟩ : BufTy).Contents (Elt Ideal)) (x4 : (⟨S256, .f32⟩ : BufTy).Contents (Elt Ideal))
    (x5 : (⟨S256x1024, .f32⟩ : BufTy).Contents (Elt Ideal)) (x6 : (⟨S128x256, .f32⟩ : BufTy).Contents (Elt Ideal))
    (x7 : (⟨S128, .f32⟩ : BufTy).Contents (Elt Ideal)) (x8 : (⟨S128x256, .f32⟩ : BufTy).Contents (Elt Ideal)) :
    val_main_v59 (F := Ideal) x0 x1 x3 x4 x5 x6 x7 x8
      = Cert.Sage.dense 50000 256 128 (val_main_v50 (F := Ideal) x0 x1 x3 x4 x5) (val_main_v31 (F := Ideal) x0 x1 x3 x4 x5)
          (val_main_v51 (F := Ideal) x6) (val_main_v56 (F := Ideal) x8) x7 := by
  funext i
  rw [Cert.Sage.dense_apply_ref, val_main_v59_apply, val_main_v58_apply, val_main_v55_apply, val_main_v52_apply, val_main_v57_apply,
    val_main_v54_apply, val_main_v53_apply, val_main_call1_v0_apply, val_main_call1_cst_apply]
  have el : ∀ k : Fin 256, lidx_main_v52 i k = ix2 (n0 := 50000) (n1 := 256) (i 0) k := fun k => funext fun a => Fin.ext (by
    match a with | ⟨0, _⟩ => rfl | ⟨1, _⟩ => rfl)
  have er : ∀ k : Fin 256, ridx_main_v52 i k = ix2 (n0 := 256) (n1 := 128) k (i 1) := fun k => funext fun a => Fin.ext (by
    match a with | ⟨0, _⟩ => rfl | ⟨1, _⟩ => rfl)
  have el' : ∀ k : Fin 256, lidx_main_v57 i k = ix2 (n0 := 50000) (n1 := 256) (i 0) k := fun k => funext fun a => Fin.ext (by
    match a with | ⟨0, _⟩ => rfl | ⟨1, _⟩ => rfl)
  have er' : ∀ k : Fin 256, ridx_main_v57 i k = ix2 (n0 := 256) (n1 := 128) k (i 1) := fun k => funext fun a => Fin.ext (by
    match a with | ⟨0, _⟩ => rfl | ⟨1, _⟩ => rfl)
  have eb : idx_main_v53 (idx_main_v54 i) = ix1 (n := 128) (i 1) := funext fun a => Fin.ext (by
    match a with | ⟨0, _⟩ => rfl)
  simp only [el, er, el', er', eb, Ideal.maximumf_def, Ideal.addf_def, Ideal.ofBits_def, Ideal.ofBits_zero_f32]

end Cert.ReferenceIdeal.Layer

end
-- ==== Proof.Fold.lean ====
/-
  The result buffer after the kernel's run, as the reference's final stage of the argument arrays.

  The run's buffer contents are a fold through five segments: host operations, the first layer call, host operations,
  the second layer call, host operations. Walked level by level:

    after the first stretch   the first aggregate, the features and the transposed weights sit in the first call's operands
                              (each the reference's own stage of the arguments, in the call's operand format);
    after the first call      its output array is the dense half of a layer of those operands, which is the reference's
                              first-layer output: over the extended reals a change of float format is the identity, and the
                              kernel's grouping (A·Wl + X·Wr) + b equals the reference's (A·Wl + b) + X·Wr;
    after the second stretch  the second aggregate (the same gather / scatter-add / divide, now of that output), the
                              output itself and the second layer's transposed weights sit in the second call's operands;
    after the second call     its output array is the reference's second-layer output, for the same two reasons;
    after the last stretch    the pooled, classified result is the reference's final stage.

  A buffer that a segment does not write keeps its contents: the arguments throughout, and the sources, destinations
  and degree column across the first call.
-/
import proofs.«130147_j81879256531434_1_alg».proof.Proof.Gen.KernelIdeal.Frame
import proofs.«130147_j81879256531434_1_alg».proof.Proof.Region0
import proofs.«130147_j81879256531434_1_alg».proof.Proof.Region1
import proofs.«130147_j81879256531434_1_alg».proof.Proof.Stretches
import proofs.«130147_j81879256531434_1_alg».proof.Proof.RefLayer

set_option maxRecDepth 16384

noncomputable section

namespace Cert.KernelIdeal.Fold

open Cert.KernelIdeal Cert.KernelIdeal.Gen Cert.ReferenceIdeal.Read Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- Over the extended reals a change of float format is the identity on a whole array. -/
theorem truncf_id {s : Shape} (φ ψ : FTy) (x : FVec Ideal s φ) (h : ψ.bits < φ.bits) : (truncf ψ x h : s.Idx → EReal) = x := rfl

/-! ## After the first stretch -/

theorem w1_src : W1 m ρ c (Proc.devRef .tc main_v1) = val_main_v1 (F := Ideal) (m ((c : Thread nD τ).loc main_arg1)) := Stretch.src0 (F := Ideal) (W0 m ρ c)
theorem w1_dst : W1 m ρ c (Proc.devRef .tc main_v3) = val_main_v3 (F := Ideal) (m ((c : Thread nD τ).loc main_arg1)) := Stretch.dst0 (F := Ideal) (W0 m ρ c)
theorem w1_deg : W1 m ρ c (Proc.devRef .tc main_v10) = val_main_v20 (F := Ideal) (m ((c : Thread nD τ).loc main_arg1)) := Stretch.deg0 (F := Ideal) (W0 m ρ c)
theorem w1_agg : W1 m ρ c (Proc.devRef .tc main_v23) = val_main_v22 (F := Ideal) (m ((c : Thread nD τ).loc main_arg0)) (m ((c : Thread nD τ).loc main_arg1)) :=
  (Stretch.agg0 (F := Ideal) (W0 m ρ c)).trans (truncf_id .f32 .bf16 _ _)
theorem w1_feat : W1 m ρ c (Proc.devRef .tc main_v24) = (m ((c : Thread nD τ).loc main_arg0)) := (Stretch.feat0 (F := Ideal) (W0 m ρ c)).trans (truncf_id .f32 .bf16 _ _)
theorem w1_wl : W1 m ρ c (Proc.devRef .tc main_v26) = val_main_v23 (F := Ideal) (m ((c : Thread nD τ).loc main_arg3)) := (Stretch.wl0 (F := Ideal) (W0 m ρ c)).trans (truncf_id .f32 .bf16 _ _)
theorem w1_wr : W1 m ρ c (Proc.devRef .tc main_v28) = val_main_v28 (F := Ideal) (m ((c : Thread nD τ).loc main_arg5)) := (Stretch.wr0 (F := Ideal) (W0 m ρ c)).trans (truncf_id .f32 .bf16 _ _)
theorem w1_arg2 : W1 m ρ c (Proc.devRef .tc main_arg2) = (m ((c : Thread nD τ).loc main_arg2)) := Stretch.keep0_arg2 (F := Ideal) (W0 m ρ c)
theorem w1_arg4 : W1 m ρ c (Proc.devRef .tc main_arg4) = (m ((c : Thread nD τ).loc main_arg4)) := Stretch.keep0_arg4 (F := Ideal) (W0 m ρ c)
theorem w1_arg6 : W1 m ρ c (Proc.devRef .tc main_arg6) = (m ((c : Thread nD τ).loc main_arg6)) := Stretch.keep0_arg6 (F := Ideal) (W0 m ρ c)
theorem w1_arg7 : W1 m ρ c (Proc.devRef .tc main_arg7) = (m ((c : Thread nD τ).loc main_arg7)) := Stretch.keep0_arg7 (F := Ideal) (W0 m ρ c)
theorem w1_arg8 : W1 m ρ c (Proc.devRef .tc main_arg8) = (m ((c : Thread nD τ).loc main_arg8)) := Stretch.keep0_arg8 (F := Ideal) (W0 m ρ c)
theorem w1_arg9 : W1 m ρ c (Proc.devRef .tc main_arg9) = (m ((c : Thread nD τ).loc main_arg9)) := Stretch.keep0_arg9 (F := Ideal) (W0 m ρ c)
theorem w1_arg10 : W1 m ρ c (Proc.devRef .tc main_arg10) = (m ((c : Thread nD τ).loc main_arg10)) := Stretch.keep0_arg10 (F := Ideal) (W0 m ρ c)

/-! ## After the first layer call -/

/-- The first call's output array is the reference's first-layer output. -/
theorem w2_h1 : W2 m ρ c (Proc.devRef .tc main_v29) = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [Region0.arr0 (V1 m ρ) c]
  show Cert.Sage.dense 50000 1024 256 (W1 m ρ c (Proc.devRef .tc main_v23)) (W1 m ρ c (Proc.devRef .tc main_v24)) (W1 m ρ c (Proc.devRef .tc main_v26))
      (W1 m ρ c (Proc.devRef .tc main_v28)) (W1 m ρ c (Proc.devRef .tc main_arg4)) = _
  rw [w1_agg, w1_feat, w1_wl, w1_wr, w1_arg4]
  exact (Cert.ReferenceIdeal.Layer.layer1 _ _ _ _ _).symm

theorem w2_src : W2 m ρ c (Proc.devRef .tc main_v1) = val_main_v1 (F := Ideal) (m ((c : Thread nD τ).loc main_arg1)) := (W2_of_ne m ρ c main_v1 (by decide)).trans (w1_src m ρ c)
theorem w2_dst : W2 m ρ c (Proc.devRef .tc main_v3) = val_main_v3 (F := Ideal) (m ((c : Thread nD τ).loc main_arg1)) := (W2_of_ne m ρ c main_v3 (by decide)).trans (w1_dst m ρ c)
theorem w2_deg : W2 m ρ c (Proc.devRef .tc main_v10) = val_main_v20 (F := Ideal) (m ((c : Thread nD τ).loc main_arg1)) := (W2_of_ne m ρ c main_v10 (by decide)).trans (w1_deg m ρ c)
theorem w2_arg2 : W2 m ρ c (Proc.devRef .tc main_arg2) = (m ((c : Thread nD τ).loc main_arg2)) := (W2_of_ne m ρ c main_arg2 (by decide)).trans (w1_arg2 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)

/-! ## After the second stretch -/

theorem w3_agg : W3 m ρ c (Proc.devRef .tc main_v42) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (Stretch.agg1 (F := Ideal) (W2 m ρ c) (w2_h1 m ρ c) (w2_src m ρ c) (w2_dst m ρ c) (w2_deg m ρ c)).trans (truncf_id .f32 .bf16 _ _)
theorem w3_feat : W3 m ρ c (Proc.devRef .tc main_v43) = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  ((Stretch.feat1 (F := Ideal) (W2 m ρ c)).trans (truncf_id .f32 .bf16 _ _)).trans (w2_h1 m ρ c)
theorem w3_wl : W3 m ρ c (Proc.devRef .tc main_v45) = val_main_v51 (F := Ideal) (m ((c : Thread nD τ).loc main_arg6)) :=
  ((Stretch.wl1 (F := Ideal) (W2 m ρ c)).trans (truncf_id .f32 .bf16 _ _)).trans (congrArg (val_main_v51 (F := Ideal)) (w2_arg6 m ρ c))
theorem w3_wr : W3 m ρ c (Proc.devRef .tc main_v47) = val_main_v56 (F := Ideal) (m ((c : Thread nD τ).loc main_arg8)) :=
  ((Stretch.wr1 (F := Ideal) (W2 m ρ c)).trans (truncf_id .f32 .bf16 _ _)).trans (congrArg (val_main_v56 (F := Ideal)) (w2_arg8 m ρ c))
theorem w3_arg2 : W3 m ρ c (Proc.devRef .tc main_arg2) = (m ((c : Thread nD τ).loc main_arg2)) := (Stretch.keep1_arg2 (F := Ideal) (W2 m ρ c)).trans (w2_arg2 m ρ c)
theorem w3_arg7 : W3 m ρ c (Proc.devRef .tc main_arg7) = (m ((c : Thread nD τ).loc main_arg7)) := (Stretch.keep1_arg7 (F := Ideal) (W2 m ρ c)).trans (w2_arg7 m ρ c)
theorem w3_arg9 : W3 m ρ c (Proc.devRef .tc main_arg9) = (m ((c : Thread nD τ).loc main_arg9)) := (Stretch.keep1_arg9 (F := Ideal) (W2 m ρ c)).trans (w2_arg9 m ρ c)
theorem w3_arg10 : W3 m ρ c (Proc.devRef .tc main_arg10) = (m ((c : Thread nD τ).loc main_arg10)) := (Stretch.keep1_arg10 (F := Ideal) (W2 m ρ c)).trans (w2_arg10 m ρ c)

/-! ## After the second layer call -/

/-- The second call's output array is the reference's second-layer output. -/
theorem w4_h2 : W4 m ρ c (Proc.devRef .tc main_v48) = val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Region1.arr1 (V3 m ρ) c]
  show Cert.Sage.dense 50000 256 128 (W3 m ρ c (Proc.devRef .tc main_v42)) (W3 m ρ c (Proc.devRef .tc main_v43)) (W3 m ρ c (Proc.devRef .tc main_v45))
      (W3 m ρ c (Proc.devRef .tc main_v47)) (W3 m ρ c (Proc.devRef .tc main_arg7)) = _
  rw [w3_agg, w3_feat, w3_wl, w3_wr, w3_arg7]
  exact (Cert.ReferenceIdeal.Layer.layer2 _ _ _ _ _ _ _ _).symm

theorem w4_arg2 : W4 m ρ c (Proc.devRef .tc main_arg2) = (m ((c : Thread nD τ).loc main_arg2)) := (W4_of_ne m ρ c main_arg2 (by decide)).trans (w3_arg2 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)

/-! ## After the last stretch -/

/-- THE RESULT of the kernel's run: the reference's final stage of the eleven argument arrays. -/
theorem result : W5 m ρ c (Proc.devRef .tc main_v65)
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Stretch.out2 (F := Ideal) (W4 m ρ c) (w4_h2 m ρ c)).trans ?_
  rw [w4_arg2, w4_arg9, w4_arg10]

end Cert.KernelIdeal.Fold

end
-- ==== Proof.lean ====
/-
  A two-layer GraphSAGE classifier: the kernel program against its plain reference, over the extended reals.

  Both programs compute, for node features x, an edge list (sources, destinations) and a graph id per node,

      h1  = relu( mean_in(x)  · W1lᵀ + b1l + x  · W1rᵀ )
      h2  = relu( mean_in(h1) · W2lᵀ + b2l + h1 · W2rᵀ )
      out = mean_by_graph(h2) · Wcᵀ + bc

  where mean_in(v) gathers v's rows at the edges' sources, scatter-adds them at the destinations and divides by the
  in-degree clamped below at one, and mean_by_graph pools the same way over the graph ids. The kernel program does the
  gathers, scatters, divisions, the pooling and the classifier head on the host exactly as the reference does, and runs
  each layer's dense half — the two matrix products, the bias and the clamp at zero — as a kernel over 25 blocks of
  2000 rows, on operands converted to a narrower float format.

  Over the extended reals the two agree entry by entry:
    * a change of float format is the identity;
    * a matrix product into a zero accumulator, block by block over the rows, is the same sum over the contraction
      index as the reference's whole product;
    * the kernel adds (A·Wlᵀ + X·Wrᵀ) + b where the reference adds (A·Wlᵀ + b) + X·Wrᵀ: equal by commutativity and
      associativity of addition alone, so no input needs to be finite for it;
    * everything else is the same operation applied to equal operands.

  So the result buffer of the kernel's run holds the reference's final stage of the argument arrays
  (`Cert.KernelIdeal.Fold.result`, over the run `Cert.KernelIdeal.ValueRun.run`), which is also what the reference's
  run leaves in its result buffer. The three frame claims are the generated frames (the reference's is its run with
  the result dropped), and no rewrite was sanctioned between the kernel and its idealization, so that claim is `True`.
-/
import proofs.«130147_j81879256531434_1_alg».proof.Defs
import proofs.«130147_j81879256531434_1_alg».proof.Proof.Gen.Kernel
import proofs.«130147_j81879256531434_1_alg».proof.Proof.Gen.Kernel.Skeleton
import proofs.«130147_j81879256531434_1_alg».proof.Proof.Gen.Kernel.Launch
import proofs.«130147_j81879256531434_1_alg».proof.Proof.Gen.Kernel.Points
import proofs.«130147_j81879256531434_1_alg».proof.Proof.Gen.Kernel.Frame
import proofs.«130147_j81879256531434_1_alg».proof.Proof.Gen.KernelIdeal
import proofs.«130147_j81879256531434_1_alg».proof.Proof.Gen.KernelIdeal.Skeleton
import proofs.«130147_j81879256531434_1_alg».proof.Proof.Gen.KernelIdeal.Launch
import proofs.«130147_j81879256531434_1_alg».proof.Proof.Gen.KernelIdeal.Points
import proofs.«130147_j81879256531434_1_alg».proof.Proof.Gen.KernelIdeal.Frame
import proofs.«130147_j81879256531434_1_alg».proof.Proof.Gen.ReferenceIdeal
import proofs.«130147_j81879256531434_1_alg».proof.Proof.Gen.Pre_finite_inputs
import proofs.«130147_j81879256531434_1_alg».proof.Proof.Gen.ReferenceIdeal.Run
import proofs.«130147_j81879256531434_1_alg».proof.Proof.Gen.ReferenceIdeal.Read
import proofs.«130147_j81879256531434_1_alg».proof.Proof.KernelRun
import proofs.«130147_j81879256531434_1_alg».proof.Proof.Fold
import Idealize.ShloMosaic.Adequacy
import Idealize.ShloMosaic.Init

noncomputable section

namespace Cert.Proof

open Idealize.ShloMosaic Idealize.SL.Sem

/-- The kernel program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the eleven arguments both programs end with the reference's final stage of those
    arguments in their result buffers, and with the arguments unchanged. -/
theorem algebraic : Cert.algebraic_KernelIdeal_ReferenceIdeal := by
  intro m ρ m' ρ' _ hagree
  refine ⟨fun c => Cert.ReferenceIdeal.Read.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v76_eq (F := Ideal) m' c).trans ?_
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
